-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x128 : Shape := ⟨3, ![128, 64, 128]⟩
abbrev S128x4096x32 : Shape := ⟨3, ![128, 4096, 32]⟩
abbrev S288x256 : Shape := ⟨2, ![288, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S128x64x128 : S_.BroadcastsInDim S128x64x128 (![] : Fin 0 → Fin S128x64x128.rank)
  reducesTo_S128x64x128_S_d0_1_2 : S128x64x128.ReducesTo [0, 1, 2] S_
  h_S_ : 0 < S_.numel
  bcast_S_S128x4096x32 : S_.BroadcastsInDim S128x4096x32 (![] : Fin 0 → Fin S128x4096x32.rank)
  reducesTo_S128x4096x32_S_d0_1_2 : S128x4096x32.ReducesTo [0, 1, 2] S_
  bcast_S_S288x256 : S_.BroadcastsInDim S288x256 (![] : Fin 0 → Fin S288x256.rank)
  reducesTo_S288x256_S_d0_1 : S288x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S256x1 .f32) (main_arg7 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x1 .f32 := Host.absf main_arg6
  let main_cst_10 : FVec F S_ .f32 := constant S_ .f32 0x7F800000#32
  let main_v30 : FVec F S256x1 .f32 := broadcastInDim S256x1 ![] bcast_S_S256x1 main_cst_10
  let main_v31 : IVec S256x1 1 := cmpf .olt main_v29 main_v30
  let main_c_11 : IVec S_ 1 := constantI S_ 1 1#1
  let main_v32 : IVec S_ 1 := (fun x v => Host.reduce IntOp.andi x v reducesTo_S256x1_S_d0_1 h_S_) main_v31 main_c_11
  let main_v33 : IVec S_ 1 := andi main_v28 main_v32
  fn_part2 (F := F) main_arg7 main_v33

def fn {F : FTy → Type} [FloatOps F] (main_arg0 : FVec F S128x64x128 .f32) (main_arg1 : FVec F S128x4096x32 .f32) (main_arg2 : FVec F S288x256 .f32) (main_arg3 : FVec F S256 .f32) (main_arg4 : FVec F S256x256 .f32) (main_arg5 : FVec F S256 .f32) (main_arg6 : FVec F S256x1 .f32) (main_arg7 : FVec F S1 .f32) : IVec S_ 1 :=
  let main_v0 : FVec F S128x64x128 .f32 := Host.absf main_arg0
  let main_cst : FVec F S_ .f32 := constant S_ .f32 0x7F800000#32
  let main_v1 : FVec F S128x64x128 .f32 := broadcastInDim S128x64x128 ![] bcast_S_S128x64x128 main_cst
  let main_v2 : IVec S128x64x128 1 := cmpf .olt main_v0 main_v1
  let main_c : IVec S_ 1 := constantI S_ 1 1#1
  let main_v3 : IVec S_ 1 := (fun x v => Host.reduce IntOp.andi x v reducesTo_S128x64x128_S_d0_1_2 h_S_) main_v2 main_c
  let main_v4 : FVec F S128x4096x32 .f32 := Host.absf main_arg1
  let main_cst_0 : FVec F S_ .f32 := constant S_ .f32 0x7F800000#32
  let main_v5 : FVec F S128x4096x32 .f32 := broadcastInDim S128x4096x32 ![] bcast_S_S128x4096x32 main_cst_0
  let main_v6 : IVec S128x4096x32 1 := cmpf .olt main_v4 main_v5
  let main_c_1 : IVec S_ 1 := constantI S_ 1 1#1
  let main_v7 : IVec S_ 1 := (fun x v => Host.reduce IntOp.andi x v reducesTo_S128x4096x32_S_d0_1_2 h_S_) main_v6 main_c_1
  let main_v8 : IVec S_ 1 := andi main_v3 main_v7
  let main_v9 : FVec F S288x256 .f32 := Host.absf main_arg2
  let main_cst_2 : FVec F S_ .f32 := constant S_ .f32 0x7F800000#32
  let main_v10 : FVec F S288x256 .f32 := broadcastInDim S288x256 ![] bcast_S_S288x256 main_cst_2
  let main_v11 : IVec S288x256 1 := cmpf .olt main_v9 main_v10
  let main_c_3 : IVec S_ 1 := constantI S_ 1 1#1
  let main_v12 : IVec S_ 1 := (fun x v => Host.reduce IntOp.andi x v reducesTo_S288x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S128x64x128 : Shape := ⟨3, ![128, 64, 128]⟩
abbrev S128x4096x32 : Shape := ⟨3, ![128, 4096, 32]⟩
abbrev S288x256 : Shape := ⟨2, ![288, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S128x4096x1 : Shape := ⟨3, ![128, 4096, 1]⟩
abbrev S1x64x128 : Shape := ⟨3, ![1, 64, 128]⟩
abbrev S1x1024x32 : Shape := ⟨3, ![1, 1024, 32]⟩
abbrev S1x1024x1 : Shape := ⟨3, ![1, 1024, 1]⟩
abbrev S64x128 : Shape := ⟨2, ![64, 128]⟩
abbrev S1x16x128 : Shape := ⟨3, ![1, 16, 128]⟩
abbrev S16x128 : Shape := ⟨2, ![16, 128]⟩
abbrev S16x1x128 : Shape := ⟨3, ![16, 1, 128]⟩
abbrev S16x64x128 : Shape := ⟨3, ![16, 64, 128]⟩
abbrev S1024x128 : Shape := ⟨2, ![1024, 128]⟩
abbrev S1024x32 : Shape := ⟨2, ![1024, 32]⟩
abbrev S1024x288 : Shape := ⟨2, ![1024, 288]⟩
abbrev S1024x256 : Shape := ⟨2, ![1024, 256]⟩
abbrev S1x256 : Shape := ⟨2, ![1, 256]⟩
abbrev S1024x1 : Shape := ⟨2, ![1024, 1]⟩
abbrev S1x1 : Shape := ⟨2, ![1, 1]⟩

abbrev nBuf : Space → Nat
  | .hbm => 14
  | .vmem => 12
  | .smem => 0
  | _ => 0

abbrev bufTy : (tb : Table) → Fin (tcTables nBuf tb) → BufTy
  | .hbm, ⟨0, _⟩ => ⟨S128x64x128, .f32⟩
  | .hbm, ⟨1, _⟩ => ⟨S128x4096x32, .f32⟩
  | .hbm, ⟨2, _⟩ => ⟨S288x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S128x64x128, .bf16⟩
  | .hbm, ⟨9, _⟩ => ⟨S128x4096x32, .bf16⟩
  | .hbm, ⟨10, _⟩ => ⟨S288x256, .bf16⟩
  | .hbm, ⟨11, _⟩ => ⟨S256x256, .bf16⟩
  | .hbm, ⟨12, _⟩ => ⟨S256x1, .bf16⟩
  | .hbm, ⟨13, _⟩ => ⟨S128x4096x1, .f32⟩
  | .local _ .vmem, ⟨0, _⟩ => ⟨S1x64x128, .bf16⟩
  | .local _ .vmem, ⟨1, _⟩ => ⟨S1x64x128, .bf16⟩
  | .local _ .vmem, ⟨2, _⟩ => ⟨S1x1024x32, .bf16⟩
  | .local _ .vmem, ⟨3, _⟩ => ⟨S1x1024x32, .bf16⟩
  | .local _ .vmem, ⟨4, _⟩ => ⟨S288x256, .bf16⟩
  | .local _ .vmem, ⟨5, _⟩ => ⟨S256, .f32⟩
  | .local _ .vmem, ⟨6, _⟩ => ⟨S256x256, .bf16⟩
  | .local _ .vmem, ⟨7, _⟩ => ⟨S256, .f32⟩
  | .local _ .vmem, ⟨8, _⟩ => ⟨S256x1, .bf16⟩
  | .local _ .vmem, ⟨9, _⟩ => ⟨S1, .f32⟩
  | .local _ .vmem, ⟨10, _⟩ => ⟨S1x1024x1, .f32⟩
  | .local _ .vmem, ⟨11, _⟩ => ⟨S1x1024x1, .f32⟩
  | _, _ => ⟨S128x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![128, 4], ![false, false]⟩

def k0_mult1 (i : grid0.Coords) : BitVec 32 :=
  let arg1 : BitVec 32 := BitVec.ofNat 32 (i 1).val
  let c16_i32 : BitVec 32 := 16#32
  let v0 : BitVec 32 := Scalar.muli arg1 c16_i32
  v0
def k0_off1 (i : grid0.Coords) : Fin 3 → Nat :=
  let c0_2 : Index := 0#32
  let arg1 : BitVec 32 := BitVec.ofNat 32 (i 1).val
  let c16_i32 : BitVec 32 := 16#32
  let v0 : BitVec 32 := Scalar.muli arg1 c16_i32
  let v1 : BitVec 32 := v0
  let v4 : Index := Scalar.indexCast v1
  let c0_3 : Index := 0#32
  ![0, v4.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x32 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S288x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  h_S1x16x128 : 0 < S1x16x128.numel
  shapeCasts_S1x16x128_S16x128 : S1x16x128.ShapeCasts S16x128
  shapeCasts_S16x128_S16x1x128 : S16x128.ShapeCasts S16x1x128
  shapeCasts_S16x1x128_S16x1x128 : S16x1x128.ShapeCasts S16x1x128
  broadcasts_S16x1x128_S16x64x128 : S16x1x128.Broadcasts S16x64x128
  shapeCasts_S16x64x128_S1024x128 : S16x64x128.ShapeCasts S1024x128
  shapeCasts_S64x128_S1x64x128 : S64x128.ShapeCasts S1x64x128
  shapeCasts_S1x64x128_S1x64x128 : S1x64x128.ShapeCasts S1x64x128
  broadcasts_S1x64x128_S16x64x128 : S1x64x128.Broadcasts S16x64x128
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  concatenates_S1024x128_S1024x32_S1024x128_S1024x288_d1 : Shape.Concatenates [S1024x128, S1024x32, S1024x128] S1024x288 1
  inb_S288x256_S288x256_0_0 : ∀ a, (![0, 0] : Fin 2 → Nat) a + S288x256.size a ≤ S288x256.size a
  h_S288x256 : 0 < S288x256.numel
  shapeCasts_S288x256_S288x256 : S288x256.ShapeCasts S288x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  dot_S1024x288_S288x256_S1024x256_1_0_0_1_n_n_wf : DotDims.WF S1024x288 S288x256 S1024x256 [1] [0] [0] [1] [] []
  dot_S1024x256_S256x256_S1024x256_1_0_0_1_n_n_wf : DotDims.WF S1024x256 S256x256 S1024x256 [1] [0] [0] [1] [] []
  dot_S1024x256_S256x1_S1024x1_1_0_0_1_n_n_wf : DotDims.WF S1024x256 S256x1 S1024x1 [1] [0] [0] [1] [] []
  hrank0 : 0 < grid0.rank
  k0_mult1_dvd : ∀ i : grid0.Coords, 16 ∣ (k0_mult1 i).toNat
  k0_off1_inb : ∀ i : grid0.Coords, ∀ a, (k0_off1 i) a + S1x16x128.size a ≤ S1x64x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S128x64x128.size a
  hwx0_0 : ∀ i : grid0.Coords, EltTy.bits .bf16 = 32 ∨ (Rect.block (s := S128x64x128) S1x64x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x32.size a ≤ S128x4096x32.size a
  hwx0_1 : ∀ i : grid0.Coords, EltTy.bits .bf16 = 32 ∨ (Rect.block (s := S128x4096x32) S1x1024x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S288x256.size a ≤ S288x256.size a
  hwx0_2 : ∀ i : grid0.Coords, EltTy.bits .bf16 = 32 ∨ (Rect.block (s := S288x256) S288x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .bf16 = 32 ∨ (Rect.block (s := S256x1) S256x1.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x1.size a ≤ S128x4096x1.size a
  hwx0_8 : ∀ i : grid0.Coords, EltTy.bits .f32 = 32 ∨ (Rect.block (s := S128x4096x1) S1x1024x1.size (cc0_transform_8 i) (hinb0_8 i)).WholeWords (EltTy.packing .f32)

variable [Facts₀]

def dot_S1024x288_S288x256_S1024x256_1_0_0_1_n_n : DotDims S1024x288 S288x256 S1024x256 where
  lhsContracting := [1]
  rhsContracting := [0]
  lhsNonContracting := [0]
  rhsNonContracting := [1]
  lhsBatch := []
  rhsBatch := []
  wf := dot_S1024x288_S288x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.ofSpec (Memref.whole main_v0) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S288x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x1024x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S128x64x128 : Shape := ⟨3, ![128, 64, 128]⟩
abbrev S128x4096x32 : Shape := ⟨3, ![128, 4096, 32]⟩
abbrev S288x256 : Shape := ⟨2, ![288, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S128x64x1x128 : Shape := ⟨4, ![128, 64, 1, 128]⟩
abbrev S128x64x64x128 : Shape := ⟨4, ![128, 64, 64, 128]⟩
abbrev S128x4096x128 : Shape := ⟨3, ![128, 4096, 128]⟩
abbrev S128x1x64x128 : Shape := ⟨4, ![128, 1, 64, 128]⟩
abbrev S128x4096x288 : Shape := ⟨3, ![128, 4096, 288]⟩
abbrev S128x4096x256 : Shape := ⟨3, ![128, 4096, 256]⟩
abbrev S1x1x256 : Shape := ⟨3, ![1, 1, 256]⟩
abbrev S_ : Shape := ⟨0, ![]⟩
abbrev S128x4096x1 : Shape := ⟨3, ![128, 4096, 1]⟩
abbrev S1x1x1 : Shape := ⟨3, ![1, 1, 1]⟩

abbrev nBuf : Space → Nat
  | .hbm => 33
  | .vmem => 0
  | .smem => 0
  | _ => 0

abbrev bufTy : (tb : Table) → Fin (tcTables nBuf tb) → BufTy
  | .hbm, ⟨0, _⟩ => ⟨S128x64x128, .f32⟩
  | .hbm, ⟨1, _⟩ => ⟨S128x4096x32, .f32⟩
  | .hbm, ⟨2, _⟩ => ⟨S288x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S128x64x1x128, .f32⟩
  | .hbm, ⟨9, _⟩ => ⟨S128x64x64x128, .f32⟩
  | .hbm, ⟨10, _⟩ => ⟨S128x4096x128, .f32⟩
  | .hbm, ⟨11, _⟩ => ⟨S128x1x64x128, .f32⟩
  | .hbm, ⟨12, _⟩ => ⟨S128x64x64x128, .f32⟩
  | .hbm, ⟨13, _⟩ => ⟨S128x4096x128, .f32⟩
  | .hbm, ⟨14, _⟩ => ⟨S128x4096x288, .f32⟩
  | .hbm, ⟨15, _⟩ => ⟨S128x4096x256, .f32⟩
  | .hbm, ⟨16, _⟩ => ⟨S1x1x256, .f32⟩
  | .hbm, ⟨17, _⟩ => ⟨S128x4096x256, .f32⟩
  | .hbm, ⟨18, _⟩ => ⟨S128x4096x256, .f32⟩
  | .hbm, ⟨19, _⟩ => ⟨S_, .f32⟩
  | .hbm, ⟨20, _⟩ => ⟨S128x4096x256, .f32⟩
  | .hbm, ⟨21, _⟩ => ⟨S128x4096x256, .f32⟩
  | .hbm, ⟨22, _⟩ => ⟨S128x4096x256, .f32⟩
  | .hbm, ⟨23, _⟩ => ⟨S1x1x256, .f32⟩
  | .hbm, ⟨24, _⟩ => ⟨S128x4096x256, .f32⟩
  | .hbm, ⟨25, _⟩ => ⟨S128x4096x256, .f32⟩
  | .hbm, ⟨26, _⟩ => ⟨S_, .f32⟩
  | .hbm, ⟨27, _⟩ => ⟨S128x4096x256, .f32⟩
  | .hbm, ⟨28, _⟩ => ⟨S128x4096x256, .f32⟩
  | .hbm, ⟨29, _⟩ => ⟨S128x4096x1, .f32⟩
  | .hbm, ⟨30, _⟩ => ⟨S1x1x1, .f32⟩
  | .hbm, ⟨31, _⟩ => ⟨S128x4096x1, .f32⟩
  | .hbm, ⟨32, _⟩ => ⟨S128x4096x1, .f32⟩
  | _, _ => ⟨S128x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_cst : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call1_cst : Ref sig .tc := ⟨.hbm, 26, rfl⟩
abbrev main_call1_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  bcast_S128x64x128_S128x64x1x128_0_1_3 : S128x64x128.BroadcastsInDim S128x64x1x128 (![0, 1, 3] : Fin 3 → Fin S128x64x1x128.rank)
  bcast_S128x64x1x128_S128x64x64x128_0_1_2_3 : S128x64x1x128.BroadcastsInDim S128x64x64x128 (![0, 1, 2, 3] : Fin 4 → Fin S128x64x64x128.rank)
  shapeCasts_S128x64x64x128_S128x4096x128 : S128x64x64x128.ShapeCasts S128x4096x128
  bcast_S128x64x128_S128x1x64x128_0_2_3 : S128x64x128.BroadcastsInDim S128x1x64x128 (![0, 2, 3] : Fin 3 → Fin S128x1x64x128.rank)
  bcast_S128x1x64x128_S128x64x64x128_0_1_2_3 : S128x1x64x128.BroadcastsInDim S128x64x64x128 (![0, 1, 2, 3] : Fin 4 → Fin S128x64x64x128.rank)
  concatenates_S128x4096x128_S128x4096x32_S128x4096x128_S128x4096x288_d2 : Shape.Concatenates [S128x4096x128, S128x4096x32, S128x4096x128] S128x4096x288 2
  bcast_S256_S1x1x256_2 : S256.BroadcastsInDim S1x1x256 (![2] : Fin 1 → Fin S1x1x256.rank)
  bcast_S1x1x256_S128x4096x256_0_1_2 : S1x1x256.BroadcastsInDim S128x4096x256 (![0, 1, 2] : Fin 3 → Fin S128x4096x256.rank)
  bcast_S_S128x4096x256 : S_.BroadcastsInDim S128x4096x256 (![] : Fin 0 → Fin S128x4096x256.rank)
  bcast_S1_S1x1x1_2 : S1.BroadcastsInDim S1x1x1 (![2] : Fin 1 → Fin S1x1x1.rank)
  bcast_S1x1x1_S128x4096x1_0_1_2 : S1x1x1.BroadcastsInDim S128x4096x1 (![0, 1, 2] : Fin 3 → Fin S128x4096x1.rank)
  dot_S128x4096x288_S288x256_S128x4096x256_2_0_01_1_n_n_wf : DotDims.WF S128x4096x288 S288x256 S128x4096x256 [2] [0] [0, 1] [1] [] []
  dot_S128x4096x256_S256x256_S128x4096x256_2_0_01_1_n_n_wf : DotDims.WF S128x4096x256 S256x256 S128x4096x256 [2] [0] [0, 1] [1] [] []
  dot_S128x4096x256_S256x1_S128x4096x1_2_0_01_1_n_n_wf : DotDims.WF S128x4096x256 S256x1 S128x4096x1 [2] [0] [0, 1] [1] [] []

variable [Facts₀]

def dot_S128x4096x288_S288x256_S128x4096x256_2_0_01_1_n_n : DotDims S128x4096x288 S288x256 S128x4096x256 where
  lhsContracting := [2]
  rhsContracting := [0]
  lhsNonContracting := [0, 1]
  rhsNonContracting := [1]
  lhsBatch := []
  rhsBatch := []
  wf := dot_S128x4096x288_S288x256_S128x4096x256_2_0_01_1_n_n_wf
def dot_S128x4096x256_S256x256_S128x4096x256_2_0_01_1_n_n : DotDims S128x4096x256 S256x256 S128x4096x256 where
  lhsContracting := [2]
  rhsContracting := [0]
  lhsNonContracting := [0, 1]
  rhsNonContracting := [1]
  lhsBatch := []
  rhsBatch := []
  wf := dot_S128x4096x256_S256x256_S128x4096x256_2_0_01_1_n_n_wf
def dot_S128x4096x256_S256x1_S128x4096x1_2_0_01_1_n_n : DotDims S128x4096x256 S256x1 S128x4096x1 where
  lhsContracting := [2]
  rhsContracting := [0]
  lhsNonContracting := [0, 1]
  rhsNonContracting := [1]
  lhsBatch := []
  rhsBatch := []
  wf := dot_S128x4096x256_S256x1_S128x4096x1_2_0_01_1_n_n_wf

class Facts : Prop extends Facts₀ where

variable [Facts]
-- ==== Proof.Mlp.lean ====
/-
  The function both programs compute, index by index, on the extended reals.

  A batch `b` holds 64 nodes of 128 features; pair `p = 64·i + j` of the batch joins node `i = p / 64`, the pair's own
  32 edge features and node `j = p % 64` into one row of 288 features. Three dense layers follow, the first two with
  a rectifier: `out b p = W3ᵀ · relu (W2ᵀ · relu (W1ᵀ · row b p + b1) + b2) + b3`. Every sum here is a finite sum over the
  whole feature axis; no law of arithmetic beyond reading the sums is used anywhere, so nothing asks the inputs to be finite.

  The three layers are a function of ONE row (`mlpRow`); the two programs differ only in how they lay the rows out:
  the reference builds all 128 × 4096 rows at once (`pairRow`), a grid point builds the 1024 rows of sixteen
  consecutive nodes `i` of one batch from the batch's node list, those sixteen nodes and the rows' edge features
  (`blockRow`).
-/
import Idealize.ShloMosaic.Lib.ValueIdx
import Idealize.ShloMosaic.PureOps.Ideal

noncomputable section

namespace Cert.Mlp

open Idealize.ShloMosaic Idealize.ShloMosaic.ValueIdx

/-- The rectifier as both programs spell it: the larger of the value and the float zero word. -/
def relu (z : EReal) : EReal := max z (Ideal.ofBits .f32 0x00000000#32)

/-- One unit of a dense layer over a row `x` of `K` features: `∑ k, x k · W k h + bias`. -/
def unit {K H : ℕ} (x : Fin K → EReal) (W : (⟨2, ![K, H]⟩ : Shape).Idx → EReal) (bias : EReal) (h : Fin H) : EReal :=
  (∑ k : Fin K, x k * W (ix2 k h)) + bias

/-- The three layers on one row of 288 features (the result has one unit, `c : Fin 1`). -/
def mlpRow (row : Fin 288 → EReal)
    (W1 : (⟨2, ![288, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 1]⟩ : Shape).Idx → EReal) (b3 : (⟨1, ![1]⟩ : Shape).Idx → EReal) (c : Fin 1) : EReal :=
  unit (fun h : Fin 256 => relu (unit (fun g : Fin 256 => relu (unit row W1 (b1 (ix1 g)) g)) W2 (b2 (ix1 h)) h)) W3 (b3 (ix1 c)) c

/-- The 288 features of pair `p` of batch `b`: node `p / 64`, then the pair's edge features, then node `p % 64`. -/
def pairRow (nodes : (⟨3, ![128, 64, 128]⟩ : Shape).Idx → EReal) (edges : (⟨3, ![128, 4096, 32]⟩ : Shape).Idx → EReal)
    (b : Fin 128) (p : Fin 4096) (f : Fin 288) : EReal :=
  if h1 : f.val < 128 then nodes (ix3 b (⟨p.val / 64, by have := p.isLt; omega⟩ : Fin 64) (⟨f.val, h1⟩ : Fin 128))
  else if h2 : f.val < 160 then edges (ix3 b p (⟨f.val - 128, by omega⟩ : Fin 32))
  else nodes (ix3 b (⟨p.val % 64, Nat.mod_lt _ (by decide)⟩ : Fin 64) (⟨f.val - 160, by have := f.isLt; omega⟩ : Fin 128))

/-- The same 288 features as a grid point lays them out for its row `r` of 1024: from the sixteen nodes it owns
    (`own`, node `r / 64` of them), the rows' edge features (`edg`) and the batch's whole node list (`full`, node `r % 64`). -/
def blockRow (full : (⟨3, ![1, 64, 128]⟩ : Shape).Idx → EReal) (own : (⟨3, ![1, 16, 128]⟩ : Shape).Idx → EReal)
    (edg : (⟨3, ![1, 1024, 32]⟩ : Shape).Idx → EReal) (r : Fin 1024) (f : Fin 288) : EReal :=
  if h1 : f.val < 128 then own (ix3 (0 : Fin 1) (⟨r.val / 64, by have := r.isLt; omega⟩ : Fin 16) (⟨f.val, h1⟩ : Fin 128))
  else if h2 : f.val < 160 then edg (ix3 (0 : Fin 1) r (⟨f.val - 128, by omega⟩ : Fin 32))
  else full (ix3 (0 : Fin 1) (⟨r.val % 64, Nat.mod_lt _ (by decide)⟩ : Fin 64) (⟨f.val - 160, by have := f.isLt; omega⟩ : Fin 128))

/-- The result array: one number per pair, the three layers on the pair's row. -/
def out (nodes : (⟨3, ![128, 64, 128]⟩ : Shape).Idx → EReal) (edges : (⟨3, ![128, 4096, 32]⟩ : Shape).Idx → EReal)
    (W1 : (⟨2, ![288, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![256, 1]⟩ : Shape).Idx → EReal) (b3 : (⟨1, ![1]⟩ : Shape).Idx → EReal) :
    (⟨3, ![128, 4096, 1]⟩ : Shape).Idx → EReal := fun i =>
  mlpRow (pairRow nodes edges (i 0) (i 1)) W1 b1 W2 b2 W3 b3 (i 2)

end Cert.Mlp

end
-- ==== Proof.RefValue.lean ====
/-
  The reference computes the specification: its last stage, read at an index, is the three layers on the pair's row.
-/
import proofs.«116079_j40922448396322_1_alg».proof.Proof.Gen.ReferenceIdeal.Read
import proofs.«116079_j40922448396322_1_alg».proof.Proof.Mlp
import Idealize.ShloMosaic.Lib.Pipeline.Value
import Idealize.ShloMosaic.Lib.ValueIdx
import Idealize.ShloMosaic.PureOps.Ideal.Laws

noncomputable section

namespace Cert.RefValue

open Cert.ReferenceIdeal Cert.ReferenceIdeal.Gen Cert.ReferenceIdeal.Read Idealize.ShloMosaic Idealize.ShloMosaic.ValueIdx

/-! ## The row of 288 features

The reference builds the rows by joining three arrays along the feature axis: the nodes repeated along a new third axis
and flattened (row `p` reads node `p / 64`), the edge features, and the nodes repeated along a new second axis and
flattened (row `p` reads node `p % 64`). -/

/-- The first piece at `(b, p, d)` is feature `d` of node `p / 64` of batch `b`: the row-major position
    `(b·4096 + p)·128 + d` of the flattened array has coordinates `(b, p / 64, p % 64, d)` in the four-axis one. -/
theorem first_node (x0 : (⟨S128x64x128, .f32⟩ : BufTy).Contents (Elt Ideal)) (b : Fin 128) (p : Fin 4096) (d : Fin 128) :
    val_main_v2 (F := Ideal) x0 (ix3 b p d)
      = x0 (ix3 b (⟨p.val / 64, by have := p.isLt; omega⟩ : Fin 64) d) := by
  have hb := b.isLt
  have hp := p.isLt
  have hd := d.isLt
  have e : idx_main_v0 (idx_main_v1 (idx_main_v2 (ix3 b p d)))
      = ix3 b (⟨p.val / 64, by omega⟩ : Fin 64) d := funext fun a => Fin.ext (by
    match a with
    | ⟨0, _⟩ => show ((b.val * 4096 + p.val) * 128 + d.val) / 524288 = b.val; omega
    | ⟨1, _⟩ => show ((b.val * 4096 + p.val) * 128 + d.val) / 8192 % 64 = p.val / 64; omega
    | ⟨2, _⟩ => show ((b.val * 4096 + p.val) * 128 + d.val) % 128 = d.val; omega)
  rw [val_main_v2_apply, val_main_v1_apply, val_main_v0_apply, e]

/-- The third piece at `(b, p, d)` is feature `d` of node `p % 64` of batch `b`. -/
theorem second_node (x0 : (⟨S128x64x128, .f32⟩ : BufTy).Contents (Elt Ideal)) (b : Fin 128) (p : Fin 4096) (d : Fin 128) :
    val_main_v5 (F := Ideal) x0 (ix3 b p d)
      = x0 (ix3 b (⟨p.val % 64, Nat.mod_lt _ (by decide)⟩ : Fin 64) d) := by
  have hb := b.isLt
  have hp := p.isLt
  have hd := d.isLt
  have e : idx_main_v3 (idx_main_v4 (idx_main_v5 (ix3 b p d)))
      = ix3 b (⟨p.val % 64, Nat.mod_lt _ (by decide)⟩ : Fin 64) d := funext fun a => Fin.ext (by
    match a with
    | ⟨0, _⟩ => show ((b.val * 4096 + p.val) * 128 + d.val) / 524288 = b.val; omega
    | ⟨1, _⟩ => show ((b.val * 4096 + p.val) * 128 + d.val) / 128 % 64 = p.val % 64; omega
    | ⟨2, _⟩ => show ((b.val * 4096 + p.val) * 128 + d.val) % 128 = d.val; omega)
  rw [val_main_v5_apply, val_main_v4_apply, val_main_v3_apply, e]

/-- The joined array at `(b, p, f)` is feature `f` of the pair's row: the piece whose span of the feature axis holds `f`
    (`[0, 128)`, `[128, 160)`, `[160, 288)`), read at `f` less the extents before it. -/
theorem row_eq (x0 : (⟨S128x64x128, .f32⟩ : BufTy).Contents (Elt Ideal)) (x1 : (⟨S128x4096x32, .f32⟩ : BufTy).Contents (Elt Ideal))
    (b : Fin 128) (p : Fin 4096) (f : Fin 288) :
    val_main_v6 (F := Ideal) x0 x1 (ix3 b p f) = Cert.Mlp.pairRow x0 x1 b p f := by
  have hf := f.isLt
  unfold val_main_v6 Cert.Mlp.pairRow
  by_cases h1 : f.val < 128
  · rw [dif_pos h1]
    refine Eq.trans ?_ (first_node x0 b p ⟨f.val, h1⟩)
    refine concatenate_apply_piece _ _ _ _ 0 ?_ S128x4096x128 (val_main_v2 (F := Ideal) x0) ?_ ?_ 0 ?_
      (ix3 b p (⟨f.val, h1⟩ : Fin 128)) ?_ ?_
    · show (0 : Nat) < 3; omega
    · rfl
    · rfl
    · rfl
    · intro a ha
      match a, ha with
      | ⟨0, _⟩, _ => rfl
      | ⟨1, _⟩, _ => rfl
      | ⟨2, _⟩, ha => exact absurd (Fin.ext rfl) ha
    · show 0 + f.val = f.val; omega
  · rw [dif_neg h1]
    by_cases h2 : f.val < 160
    · rw [dif_pos h2]
      refine concatenate_apply_piece _ _ _ _ 1 ?_ S128x4096x32 x1 ?_ ?_ 128 ?_
        (ix3 b p (⟨f.val - 128, by omega⟩ : Fin 32)) ?_ ?_
      · show (1 : Nat) < 3; omega
      · rfl
      · rfl
      · rfl
      · intro a ha
        match a, ha with
        | ⟨0, _⟩, _ => rfl
        | ⟨1, _⟩, _ => rfl
        | ⟨2, _⟩, ha => exact absurd (Fin.ext rfl) ha
      · show 128 + (f.val - 128) = f.val; omega
    · rw [dif_neg h2]
      refine Eq.trans ?_ (second_node x0 b p ⟨f.val - 160, by omega⟩)
      refine concatenate_apply_piece _ _ _ _ 2 ?_ S128x4096x128 (val_main_v5 (F := Ideal) x0) ?_ ?_ 160 ?_
        (ix3 b p (⟨f.val - 160, by omega⟩ : Fin 128)) ?_ ?_
      · show (2 : Nat) < 3; omega
      · rfl
      · rfl
      · rfl
      · intro a ha
        match a, ha with
        | ⟨0, _⟩, _ => rfl
        | ⟨1, _⟩, _ => rfl
        | ⟨2, _⟩, ha => exact absurd (Fin.ext rfl) ha
      · show 160 + (f.val - 160) = f.val; omega

/-! ## The three layers -/

/-- The first layer after its rectifier, at unit `g` of pair `p` of batch `b`. -/
theorem layer1 (x0 : (⟨S128x64x128, .f32⟩ : BufTy).Contents (Elt Ideal)) (x1 : (⟨S128x4096x32, .f32⟩ : BufTy).Contents (Elt Ideal))
    (x2 : (⟨S288x256, .f32⟩ : BufTy).Contents (Elt Ideal)) (x3 : (⟨S256, .f32⟩ : BufTy).Contents (Elt Ideal))
    (b : Fin 128) (p : Fin 4096) (g : Fin 256) :
    val_main_v11 (F := Ideal) x0 x1 x2 x3 (ix3 b p g)
      = Cert.Mlp.relu (Cert.Mlp.unit (Cert.Mlp.pairRow x0 x1 b p) x2 (x3 (ix1 g)) g) := by
  have eb : idx_main_v8 (idx_main_v9 (ix3 b p g)) = ix1 g := funext fun a => Fin.ext (by
    match a with
    | ⟨0, _⟩ => rfl)
  have el : ∀ k : Fin 288, lidx_main_v7 (ix3 b p g) k = ix3 b p k := fun k => funext fun a => Fin.ext (by
    match a with
    | ⟨0, _⟩ => rfl
    | ⟨1, _⟩ => rfl
    | ⟨2, _⟩ => rfl)
  have er : ∀ k : Fin 288, ridx_main_v7 (ix3 b p g) k = ix2 k g := fun k => funext fun a => Fin.ext (by
    match a with
    | ⟨0, _⟩ => rfl
    | ⟨1, _⟩ => rfl)
  rw [val_main_v11_apply, val_main_v10_apply, val_main_v7_apply, val_main_v9_apply, val_main_v8_apply,
    val_main_call0_v0_apply, val_main_call0_cst_apply, eb]
  simp only [el, er, row_eq]
  rfl

/-- The second layer after its rectifier, at unit `h` of pair `p` of batch `b`. -/
theorem layer2 (x0 : (⟨S128x64x128, .f32⟩ : BufTy).Contents (Elt Ideal)) (x1 : (⟨S128x4096x32, .f32⟩ : BufTy).Contents (Elt Ideal))
    (x2 : (⟨S288x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (b : Fin 128) (p : Fin 4096) (h : Fin 256) :
    val_main_v16 (F := Ideal) x0 x1 x2 x3 x4 x5 (ix3 b p h)
      = Cert.Mlp.relu (Cert.Mlp.unit
          (fun g : Fin 256 => Cert.Mlp.relu (Cert.Mlp.unit (Cert.Mlp.pairRow x0 x1 b p) x2 (x3 (ix1 g)) g))
          x4 (x5 (ix1 h)) h) := by
  have eb : idx_main_v13 (idx_main_v14 (ix3 b p h)) = ix1 h := funext fun a => Fin.ext (by
    match a with
    | ⟨0, _⟩ => rfl)
  have el : ∀ k : Fin 256, lidx_main_v12 (ix3 b p h) k = ix3 b p k := fun k => funext fun a => Fin.ext (by
    match a with
    | ⟨0, _⟩ => rfl
    | ⟨1, _⟩ => rfl
    | ⟨2, _⟩ => rfl)
  have er : ∀ k : Fin 256, ridx_main_v12 (ix3 b p h) k = ix2 k h := fun k => funext fun a => Fin.ext (by
    match a with
    | ⟨0, _⟩ => rfl
    | ⟨1, _⟩ => rfl)
  rw [val_main_v16_apply, val_main_v15_apply, val_main_v12_apply, val_main_v14_apply, val_main_v13_apply,
    val_main_call1_v0_apply, val_main_call1_cst_apply, eb]
  simp only [el, er, layer1]
  rfl

/-- The reference's result, as a function of its eight arguments, is `Mlp.out` of them. -/
theorem ref_is_out (x0 : (⟨S128x64x128, .f32⟩ : BufTy).Contents (Elt Ideal)) (x1 : (⟨S128x4096x32, .f32⟩ : BufTy).Contents (Elt Ideal))
    (x2 : (⟨S288x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x1, .f32⟩ : BufTy).Contents (Elt Ideal)) (x7 : (⟨S1, .f32⟩ : BufTy).Contents (Elt Ideal)) :
    val_main_v20 (F := Ideal) x0 x1 x2 x3 x4 x5 x6 x7 = Cert.Mlp.out x0 x1 x2 x3 x4 x5 x6 x7 := by
  funext i
  obtain ⟨b, p, c, rfl⟩ : ∃ (b : Fin 128) (p : Fin 4096) (c : Fin 1), i = ix3 b p c := ⟨i 0, i 1, i 2, eq_ix3 i⟩
  have hc := c.isLt
  have eb : idx_main_v18 (idx_main_v19 (ix3 b p c)) = ix1 c := funext fun a => Fin.ext (by
    match a with
    | ⟨0, _⟩ => show 0 = c.val; omega)
  have el : ∀ k : Fin 256, lidx_main_v17 (ix3 b p c) k = ix3 b p k := fun k => funext fun a => Fin.ext (by
    match a with
    | ⟨0, _⟩ => rfl
    | ⟨1, _⟩ => rfl
    | ⟨2, _⟩ => rfl)
  have er : ∀ k : Fin 256, ridx_main_v17 (ix3 b p c) k = ix2 k c := fun k => funext fun a => Fin.ext (by
    match a with
    | ⟨0, _⟩ => rfl
    | ⟨1, _⟩ => rfl)
  rw [val_main_v20_apply, val_main_v17_apply, val_main_v19_apply, val_main_v18_apply, eb]
  simp only [el, er, layer2]
  rfl

end Cert.RefValue

end
-- ==== Proof.Pieces.lean ====
/-
  What one grid point leaves in its output block: the body stores ONE value, the three layers' term `k0_pay1 (k0_pay2 …)`
  of what its nine loads read — the eight input blocks whole, and rows `16·ii … 16·ii + 15` of the node block once more
  (the sixteen nodes whose pairs this point computes).
-/
import proofs.«116079_j40922448396322_1_alg».proof.Proof.Gen.KernelIdeal.Frame
import Idealize.ShloMosaic.Lib.Pipeline.Value
import Idealize.ShloMosaic.Lib.Tactic

set_option maxRecDepth 16384

noncomputable section

namespace Cert.KernelValue

open Cert.KernelIdeal Cert.KernelIdeal.Gen Idealize.ShloMosaic Idealize.ShloMosaic.TcCoe Idealize.SL.Sem
open Idealize.ShloMosaic.Pipeline (Dat)

variable {F : FTy → Type} [FloatOps F]

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- The sixteen nodes a grid point owns, as the body's second load reads them out of the batch's node block:
    rows `16·ii` onwards, `ii` the point's second coordinate. -/
abbrev ownNodes (i : grid0.Coords) (x0 : Vec F S1x64x128 .bf16) : Vec F S1x16x128 .bf16 :=
  View.ld x0 (Rect.unit (k0_off1 i) S1x16x128.size (k0_off1_inb i))

/-- The output block after the body, on any staging memrefs holding the input blocks `x0 … x7`: the one covering
    store's payload, its loads read back as the blocks. -/
theorem stored_eq (c : Dev nD) (i : grid0.Coords) (arg2 : Memref sig .tc .vmem S1x64x128 .bf16) (harg2 : arg2.IsWhole) (arg3 : Memref sig .tc .vmem S1x1024x32 .bf16) (harg3 : arg3.IsWhole) (arg4 : Memref sig .tc .vmem S288x256 .bf16) (harg4 : arg4.IsWhole) (arg5 : Memref sig .tc .vmem S256 .f32) (harg5 : arg5.IsWhole) (arg6 : Memref sig .tc .vmem S256x256 .bf16) (harg6 : arg6.IsWhole) (arg7 : Memref sig .tc .vmem S256 .f32) (harg7 : arg7.IsWhole) (arg8 : Memref sig .tc .vmem S256x1 .bf16) (harg8 : arg8.IsWhole) (arg9 : Memref sig .tc .vmem S1 .f32) (harg9 : arg9.IsWhole) (arg10 : Memref sig .tc .vmem S1x1024x1 .f32) (harg10 : arg10.IsWhole)
    (x0 : Vec F S1x64x128 .bf16) (x1 : Vec F S1x1024x32 .bf16) (x2 : Vec F S288x256 .bf16) (x3 : Vec F S256 .f32) (x4 : Vec F S256x256 .bf16) (x5 : Vec F S256 .f32) (x6 : Vec F S256x1 .bf16) (x7 : Vec F S1 .f32) :
    out0_A_8 c i arg2 harg2 arg3 harg3 arg4 harg4 arg5 harg5 arg6 harg6 arg7 harg7 arg8 harg8 arg9 harg9 arg10 harg10 x0 x1 x2 x3 x4 x5 x6 x7
      = k0_pay1 (k0_pay2 x0 (ownNodes i x0) x1 x2 x3 x4 x5) x6 x7 := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  rw [View.canon_unit_zero zeros3]
  simp only [View.readAt_eq_ld, harg2.read_unread, harg3.read_unread, harg4.read_unread, harg5.read_unread,
    harg6.read_unread, harg7.read_unread, harg8.read_unread, harg9.read_unread,
    View.ld_unit_zero (S := S1x64x128) zeros3, View.ld_unit_zero (S := S1x1024x32) zeros3,
    View.ld_unit_zero (S := S288x256) zeros2, View.ld_unit_zero (S := S256) zeros1,
    View.ld_unit_zero (S := S256x256) zeros2, View.ld_unit_zero (S := S256x1) zeros2, View.ld_unit_zero (S := S1) zeros1]
  rfl

end Cert.KernelValue

end
-- ==== Proof.Blocks.lean ====
/-
  The blocks a grid point is handed, as rows of the arrays. Point `t` of the 128 × 4 grid is batch `t / 4`, row tile
  `t % 4`: it is handed the batch's whole node list, rows `1024·(t % 4) …` of the batch's edge features, and the six
  weight and bias arrays whole; of the node list it reads rows `16·(t % 4) …` once more. The host converts the nodes,
  the edge features and the three weight matrices to a narrower float format before the call, which changes nothing
  on the extended reals. So the row the point lays out for its result row `r` is the pair row of pair `1024·(t % 4) + r`.
-/
import proofs.«116079_j40922448396322_1_alg».proof.Proof.Gen.KernelIdeal.Frame
import proofs.«116079_j40922448396322_1_alg».proof.Proof.Pieces
import proofs.«116079_j40922448396322_1_alg».proof.Proof.Mlp
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.KernelValue

open Cert.KernelIdeal Cert.KernelIdeal.Gen Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ)

/-! ## Where each window's block lies, decided over the 512 points -/

/-- Point `t` is batch `t / 4`, row tile `t % 4`: the node window sits at the batch, the edge and result windows at the
    batch and the tile, the weight windows at the origin. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_8.index t (0 : Fin 3) = t.val / 4 ∧ win0_8.index t (1 : Fin 3) = t.val % 4 ∧ win0_8.index t (2 : Fin 3) = 0
    ∧ ((grid0.coords t) 1).val = t.val % 4 :=
  (by decide +kernel : ∀ t : Fin grid0.N, _)

theorem idx_facts_weights : ∀ t : Fin cfg0.N,
    win0_2.index t (0 : Fin 2) = 0 ∧ win0_2.index t (1 : Fin 2) = 0 ∧ win0_3.index t (0 : Fin 1) = 0
    ∧ win0_4.index t (0 : Fin 2) = 0 ∧ win0_4.index t (1 : Fin 2) = 0 ∧ win0_5.index t (0 : Fin 1) = 0
    ∧ win0_6.index t (0 : Fin 2) = 0 ∧ win0_6.index t (1 : Fin 2) = 0 ∧ win0_7.index t (0 : Fin 1) = 0 :=
  (by decide +kernel : ∀ t : Fin grid0.N, _)

/-- The batch of point `t`. -/
abbrev batchOf (t : Fin cfg0.N) : Fin 128 := ⟨t.val / 4, by have := t.isLt; have : cfg0.N = 512 := N_0; omega⟩

/-- The pair that result row `r` of point `t` belongs to. -/
abbrev pairOf (t : Fin cfg0.N) (r : Fin 1024) : Fin 4096 := ⟨1024 * (t.val % 4) + r.val, by have := r.isLt; omega⟩

/-! ## The arrays as the call finds them: the host's conversions of the arguments -/

theorem V_nodes (c : Dev nD) : (V m c main_v0 : S128x64x128.Idx → Elt F .bf16)
    = truncf .bf16 (m ((c : Thread nD τ).loc main_arg0)) bitsLt_bf16_f32 := by
  dsimp only [V, hostOps0]; after_results
theorem V_edges (c : Dev nD) : (V m c main_v1 : S128x4096x32.Idx → Elt F .bf16)
    = truncf .bf16 (m ((c : Thread nD τ).loc main_arg1)) bitsLt_bf16_f32 := by
  dsimp only [V, hostOps0]; after_results
theorem V_w1 (c : Dev nD) : (V m c main_v2 : S288x256.Idx → Elt F .bf16)
    = truncf .bf16 (m ((c : Thread nD τ).loc main_arg2)) bitsLt_bf16_f32 := by
  dsimp only [V, hostOps0]; after_results
theorem V_w2 (c : Dev nD) : (V m c main_v3 : S256x256.Idx → Elt F .bf16)
    = truncf .bf16 (m ((c : Thread nD τ).loc main_arg4)) bitsLt_bf16_f32 := by
  dsimp only [V, hostOps0]; after_results
theorem V_w3 (c : Dev nD) : (V m c main_v4 : S256x1.Idx → Elt F .bf16)
    = truncf .bf16 (m ((c : Thread nD τ).loc main_arg6)) bitsLt_bf16_f32 := by
  dsimp only [V, hostOps0]; after_results

/-! ## The blocks, named at their literal types -/

/-- The batch's node list, as point `t` is handed it. -/
abbrev nodesBlk (c : Dev nD) (t : Fin cfg0.N) : Vec F S1x64x128 .bf16 := iblk m c 0 t

/-- The edge features of the point's 1024 pairs. -/
abbrev edgesBlk (c : Dev nD) (t : Fin cfg0.N) : Vec F S1x1024x32 .bf16 := iblk m c 1 t

/-- The first layer's weights. -/
abbrev w1Blk (c : Dev nD) (t : Fin cfg0.N) : Vec F S288x256 .bf16 := iblk m c 2 t

/-- The first layer's bias. -/
abbrev b1Blk (c : Dev nD) (t : Fin cfg0.N) : Vec F S256 .f32 := iblk m c 3 t

/-- The second layer's weights. -/
abbrev w2Blk (c : Dev nD) (t : Fin cfg0.N) : Vec F S256x256 .bf16 := iblk m c 4 t

/-- The second layer's bias. -/
abbrev b2Blk (c : Dev nD) (t : Fin cfg0.N) : Vec F S256 .f32 := iblk m c 5 t

/-- The third layer's weights. -/
abbrev w3Blk (c : Dev nD) (t : Fin cfg0.N) : Vec F S256x1 .bf16 := iblk m c 6 t

/-- The third layer's bias. -/
abbrev b3Blk (c : Dev nD) (t : Fin cfg0.N) : Vec F S1 .f32 := iblk m c 7 t

/-! ## Each block read at an index: a block's coordinate is the block's index times its extent plus the coordinate inside -/

theorem nodesBlk_apply (c : Dev nD) (t : Fin cfg0.N) (u : Fin 1) (j : Fin 64) (d : Fin 128) :
    nodesBlk m c t (ix3 u j d) = V m c main_v0 (ix3 (batchOf t) j d) := by
  obtain ⟨e0, e1, e2, -⟩ := idx_facts t
  unfold nodesBlk iblk
  rw [View.read_apply]
  show V m c main_v0 _ = V m c main_v0 _
  congr 1
  funext a
  apply Fin.ext
  match a with
  | ⟨0, _⟩ => show win0_0.index t (0 : Fin 3) * 1 + 1 * u.val = t.val / 4; rw [e0]; omega
  | ⟨1, _⟩ => show win0_0.index t (1 : Fin 3) * 64 + 1 * j.val = j.val; rw [e1]; omega
  | ⟨2, _⟩ => show win0_0.index t (2 : Fin 3) * 128 + 1 * d.val = d.val; rw [e2]; omega

theorem edgesBlk_apply (c : Dev nD) (t : Fin cfg0.N) (u : Fin 1) (r : Fin 1024) (e : Fin 32) :
    edgesBlk m c t (ix3 u r e) = V m c main_v1 (ix3 (batchOf t) (pairOf t r) e) := by
  obtain ⟨-, -, -, e0, e1, e2, -⟩ := idx_facts t
  unfold edgesBlk iblk
  rw [View.read_apply]
  show V m c main_v1 _ = V m c main_v1 _
  congr 1
  funext a
  apply Fin.ext
  match a with
  | ⟨0, _⟩ => show win0_1.index t (0 : Fin 3) * 1 + 1 * u.val = t.val / 4; rw [e0]; omega
  | ⟨1, _⟩ => show win0_1.index t (1 : Fin 3) * 1024 + 1 * r.val = 1024 * (t.val % 4) + r.val; rw [e1]; omega
  | ⟨2, _⟩ => show win0_1.index t (2 : Fin 3) * 32 + 1 * e.val = e.val; rw [e2]; omega

theorem w1Blk_eq (c : Dev nD) (t : Fin cfg0.N) : w1Blk m c t = (V m c main_v2 : S288x256.Idx → Elt F .bf16) := by
  obtain ⟨e0, e1, -⟩ := idx_facts_weights t
  funext y
  unfold w1Blk iblk
  rw [View.read_apply]
  show V m c main_v2 _ = V m c main_v2 _
  congr 1
  funext a
  apply Fin.ext
  match a with
  | ⟨0, _⟩ => show win0_2.index t (0 : Fin 2) * 288 + 1 * (y 0).val = (y 0).val; rw [e0]; omega
  | ⟨1, _⟩ => show win0_2.index t (1 : Fin 2) * 256 + 1 * (y 1).val = (y 1).val; rw [e1]; omega

theorem b1Blk_eq (c : Dev nD) (t : Fin cfg0.N) : b1Blk m c t = (V m c main_arg3 : S256.Idx → Elt F .f32) := by
  obtain ⟨-, -, e0, -⟩ := idx_facts_weights t
  funext y
  unfold b1Blk iblk
  rw [View.read_apply]
  show V m c main_arg3 _ = V m c main_arg3 _
  congr 1
  funext a
  apply Fin.ext
  match a with
  | ⟨0, _⟩ => show win0_3.index t (0 : Fin 1) * 256 + 1 * (y 0).val = (y 0).val; rw [e0]; omega

theorem w2Blk_eq (c : Dev nD) (t : Fin cfg0.N) : w2Blk m c t = (V m c main_v3 : S256x256.Idx → Elt F .bf16) := by
  obtain ⟨-, -, -, e0, e1, -⟩ := idx_facts_weights t
  funext y
  unfold w2Blk iblk
  rw [View.read_apply]
  show V m c main_v3 _ = V m c main_v3 _
  congr 1
  funext a
  apply Fin.ext
  match a with
  | ⟨0, _⟩ => show win0_4.index t (0 : Fin 2) * 256 + 1 * (y 0).val = (y 0).val; rw [e0]; omega
  | ⟨1, _⟩ => show win0_4.index t (1 : Fin 2) * 256 + 1 * (y 1).val = (y 1).val; rw [e1]; omega

theorem b2Blk_eq (c : Dev nD) (t : Fin cfg0.N) : b2Blk m c t = (V m c main_arg5 : S256.Idx → Elt F .f32) := by
  obtain ⟨-, -, -, -, -, e0, -⟩ := idx_facts_weights t
  funext y
  unfold b2Blk iblk
  rw [View.read_apply]
  show V m c main_arg5 _ = V m c main_arg5 _
  congr 1
  funext a
  apply Fin.ext
  match a with
  | ⟨0, _⟩ => show win0_5.index t (0 : Fin 1) * 256 + 1 * (y 0).val = (y 0).val; rw [e0]; omega

theorem w3Blk_eq (c : Dev nD) (t : Fin cfg0.N) : w3Blk m c t = (V m c main_v4 : S256x1.Idx → Elt F .bf16) := by
  obtain ⟨-, -, -, -, -, -, e0, e1, -⟩ := idx_facts_weights t
  funext y
  unfold w3Blk iblk
  rw [View.read_apply]
  show V m c main_v4 _ = V m c main_v4 _
  congr 1
  funext a
  apply Fin.ext
  match a with
  | ⟨0, _⟩ => show win0_6.index t (0 : Fin 2) * 256 + 1 * (y 0).val = (y 0).val; rw [e0]; omega
  | ⟨1, _⟩ => show win0_6.index t (1 : Fin 2) * 1 + 1 * (y 1).val = (y 1).val; rw [e1]; omega

theorem b3Blk_eq (c : Dev nD) (t : Fin cfg0.N) : b3Blk m c t = (V m c main_arg7 : S1.Idx → Elt F .f32) := by
  obtain ⟨-, -, -, -, -, -, -, -, e0⟩ := idx_facts_weights t
  funext y
  unfold b3Blk iblk
  rw [View.read_apply]
  show V m c main_arg7 _ = V m c main_arg7 _
  congr 1
  funext a
  apply Fin.ext
  match a with
  | ⟨0, _⟩ => show win0_7.index t (0 : Fin 1) * 1 + 1 * (y 0).val = (y 0).val; rw [e0]; omega

/-- The point's own sixteen nodes are rows `16·(t % 4) + q` of the node block. -/
theorem ownNodes_apply (t : Fin cfg0.N) (x0 : Vec F S1x64x128 .bf16) (u : Fin 1) (q : Fin 16) (d : Fin 128) :
    ownNodes (grid0.coords t) x0 (ix3 u q d)
      = x0 (ix3 u (⟨16 * (t.val % 4) + q.val, by have := q.isLt; omega⟩ : Fin 64) d) := by
  obtain ⟨-, -, -, -, -, -, -, -, -, e⟩ := idx_facts t
  show x0 _ = x0 _
  congr 1
  funext a
  apply Fin.ext
  have ho := k0_off1_eq (grid0.coords t)
  match a with
  | ⟨0, _⟩ => show k0_off1 (grid0.coords t) (0 : Fin 3) + 1 * u.val = u.val; rw [ho]; show 0 + 1 * u.val = u.val; omega
  | ⟨1, _⟩ => show k0_off1 (grid0.coords t) (1 : Fin 3) + 1 * q.val = 16 * (t.val % 4) + q.val; rw [ho]; show 16 * ((grid0.coords t) 1).val + 1 * q.val = _; rw [e]; omega
  | ⟨2, _⟩ => show k0_off1 (grid0.coords t) (2 : Fin 3) + 1 * d.val = d.val; rw [ho]; show 0 + 1 * d.val = d.val; omega

end Cert.KernelValue

end
-- ==== Proof.BodyValue.lean ====
/-
  The kernel body's arithmetic at an index: row `r` of a grid point's 1024 results is the three layers on the row the
  point lays out from its loaded blocks.
-/
import proofs.«116079_j40922448396322_1_alg».proof.Proof.Gen.KernelIdeal.Skeleton
import proofs.«116079_j40922448396322_1_alg».proof.Proof.Mlp
import Idealize.ShloMosaic.Lib.Pipeline.Value
import Idealize.ShloMosaic.Lib.ValueIdx
import Idealize.ShloMosaic.Lib.ValueLayout
import Idealize.ShloMosaic.PureOps.Ideal.Laws

noncomputable section

namespace Cert.BodyValue

open Cert.KernelIdeal Cert.KernelIdeal.Gen Idealize.ShloMosaic Idealize.ShloMosaic.ValueIdx

/-! ## The rows a grid point lays out

Row `r = 64·i + j` of the 1024 joins owned node `i = r / 64`, the row's own edge features and node `j = r % 64` of the
batch's list: each node block is repeated along a new axis and flattened, so a flat row splits as `(r / 64, r % 64)`. -/

/-- The sixteen owned nodes, each repeated 64 times and flattened to 1024 rows: row `r` is node `r / 64`. -/
theorem own_apply (v5 : Vec Ideal S1x16x128 .bf16) (h1 : S1x16x128.ShapeCasts S16x128) (h2 : S16x128.ShapeCasts S16x1x128)
    (h3 : S16x1x128.ShapeCasts S16x1x128) (hb : S16x1x128.Broadcasts S16x64x128) (h4 : S16x64x128.ShapeCasts S1024x128)
    (r : Fin 1024) (g : Fin 128) :
    shapeCast S1024x128 (broadcastTo S16x64x128 (shapeCast S16x1x128 (shapeCast S16x1x128 (shapeCast S16x128 v5 h1) h2) h3) hb) h4 (ix2 r g)
      = v5 (ix3 (0 : Fin 1) (⟨r.val / 64, by have := r.isLt; omega⟩ : Fin 16) g) := by
  have hq : r.val / 64 < 16 := by have := r.isLt; omega
  have hm : r.val % 64 < 64 := Nat.mod_lt _ (by decide)
  refine (shapeCast_apply _ h4 (ix2 r g) (ix3 (⟨r.val / 64, hq⟩ : Fin 16) (⟨r.val % 64, hm⟩ : Fin 64) g) ?_).trans ?_
  · rw [Shape.rowMajor_val_three, Shape.rowMajor_val_two]
    show (r.val / 64 * 64 + r.val % 64) * 128 + g.val = r.val * 128 + g.val
    omega
  refine (broadcastTo_apply _ hb _ (ix3 (⟨r.val / 64, hq⟩ : Fin 16) (0 : Fin 1) g) (fun a => ?_)).trans ?_
  · match a with
    | ⟨0, _⟩ => show r.val / 64 = if (16 : ℕ) = 1 then 0 else r.val / 64; rw [if_neg (by decide)]
    | ⟨1, _⟩ => show 0 = if (1 : ℕ) = 1 then 0 else r.val % 64; rw [if_pos rfl]
    | ⟨2, _⟩ => show g.val = if (128 : ℕ) = 1 then 0 else g.val; rw [if_neg (by decide)]
  rw [shapeCast_self]
  refine (shapeCast_apply _ h2 _ (ix2 (⟨r.val / 64, hq⟩ : Fin 16) g) ?_).trans ?_
  · rw [Shape.rowMajor_val_three, Shape.rowMajor_val_two]
    show r.val / 64 * 128 + g.val = (r.val / 64 * 1 + 0) * 128 + g.val
    omega
  exact shapeCast_1ab_ab_apply v5 h1 _ g

/-- The batch's 64 nodes, the whole list repeated 16 times and flattened to 1024 rows: row `r` is node `r % 64`. -/
theorem full_apply (v2 : Vec Ideal S1x64x128 .bf16) (h1 : S1x64x128.ShapeCasts S64x128) (h2 : S64x128.ShapeCasts S1x64x128)
    (h3 : S1x64x128.ShapeCasts S1x64x128) (hb : S1x64x128.Broadcasts S16x64x128) (h4 : S16x64x128.ShapeCasts S1024x128)
    (r : Fin 1024) (g : Fin 128) :
    shapeCast S1024x128 (broadcastTo S16x64x128 (shapeCast S1x64x128 (shapeCast S1x64x128 (shapeCast S64x128 v2 h1) h2) h3) hb) h4 (ix2 r g)
      = v2 (ix3 (0 : Fin 1) (⟨r.val % 64, Nat.mod_lt _ (by decide)⟩ : Fin 64) g) := by
  have hq : r.val / 64 < 16 := by have := r.isLt; omega
  have hm : r.val % 64 < 64 := Nat.mod_lt _ (by decide)
  refine (shapeCast_apply _ h4 (ix2 r g) (ix3 (⟨r.val / 64, hq⟩ : Fin 16) (⟨r.val % 64, hm⟩ : Fin 64) g) ?_).trans ?_
  · rw [Shape.rowMajor_val_three, Shape.rowMajor_val_two]
    show (r.val / 64 * 64 + r.val % 64) * 128 + g.val = r.val * 128 + g.val
    omega
  refine (broadcastTo_apply _ hb _ (ix3 (0 : Fin 1) (⟨r.val % 64, hm⟩ : Fin 64) g) (fun a => ?_)).trans ?_
  · match a with
    | ⟨0, _⟩ => show 0 = if (1 : ℕ) = 1 then 0 else r.val / 64; rw [if_pos rfl]
    | ⟨1, _⟩ => show r.val % 64 = if (64 : ℕ) = 1 then 0 else r.val % 64; rw [if_neg (by decide)]
    | ⟨2, _⟩ => show g.val = if (128 : ℕ) = 1 then 0 else g.val; rw [if_neg (by decide)]
  rw [shapeCast_self, shapeCast_shapeCast]

/-- Three blocks of 128, 32 and 128 columns joined side by side: column `f` falls in the block whose span holds it. -/
theorem concat_apply {α : Type} (x0 : S1024x128.Idx → α) (x1 : S1024x32.Idx → α) (x2 : S1024x128.Idx → α)
    (h : Shape.Concatenates [S1024x128, S1024x32, S1024x128] S1024x288 1) (r : Fin 1024) (f : Fin 288) :
    concatenate S1024x288 1 [⟨S1024x128, x0⟩, ⟨S1024x32, x1⟩, ⟨S1024x128, x2⟩] h (ix2 r f)
      = if h1 : f.val < 128 then x0 (ix2 r (⟨f.val, h1⟩ : Fin 128))
        else if h2 : f.val < 160 then x1 (ix2 r (⟨f.val - 128, by omega⟩ : Fin 32))
        else x2 (ix2 r (⟨f.val - 160, by have := f.isLt; omega⟩ : Fin 128)) := by
  by_cases h1 : f.val < 128
  · rw [dif_pos h1]
    exact concatenate_apply_piece (1 : Fin S1024x288.rank) [⟨S1024x128, x0⟩, ⟨S1024x32, x1⟩, ⟨S1024x128, x2⟩] h (ix2 r f) 0 (by show (0 : ℕ) < 3; decide) S1024x128 x0 rfl rfl 0 rfl (ix2 r (⟨f.val, h1⟩ : Fin 128))
      (fun b => match b with | ⟨0, _⟩ => fun _ => rfl | ⟨1, _⟩ => fun hb => absurd (Fin.ext rfl) hb)
      (by show 0 + f.val = f.val; omega)
  · rw [dif_neg h1]
    by_cases h2 : f.val < 160
    · rw [dif_pos h2]
      exact concatenate_apply_piece (1 : Fin S1024x288.rank) [⟨S1024x128, x0⟩, ⟨S1024x32, x1⟩, ⟨S1024x128, x2⟩] h (ix2 r f) 1 (by show (1 : ℕ) < 3; decide) S1024x32 x1 rfl rfl 128 rfl (ix2 r (⟨f.val - 128, by omega⟩ : Fin 32))
        (fun b => match b with | ⟨0, _⟩ => fun _ => rfl | ⟨1, _⟩ => fun hb => absurd (Fin.ext rfl) hb)
        (by show 128 + (f.val - 128) = f.val; omega)
    · rw [dif_neg h2]
      exact concatenate_apply_piece (1 : Fin S1024x288.rank) [⟨S1024x128, x0⟩, ⟨S1024x32, x1⟩, ⟨S1024x128, x2⟩] h (ix2 r f) 2 (by show (2 : ℕ) < 3; decide) S1024x128 x2 rfl rfl 160 rfl
        (ix2 r (⟨f.val - 160, by have := f.isLt; omega⟩ : Fin 128))
        (fun b => match b with | ⟨0, _⟩ => fun _ => rfl | ⟨1, _⟩ => fun hb => absurd (Fin.ext rfl) hb)
        (by show 160 + (f.val - 160) = f.val; omega)

/-! ## The three products

Each `tpu.matmul` contracts the left operand's columns with the right operand's rows into a zero accumulator: at
`(r, h)` it is the sum over the shared axis of the products. -/

theorem lhs_first_0 (i : S1024x256.Idx) (q : dot_S1024x288_S288x256_S1024x256_1_0_0_1_n_n.contr.Idx) :
    (dot_S1024x288_S288x256_S1024x256_1_0_0_1_n_n.lhsIdx i q 0).val = (i 0).val := by
  unfold DotDims.lhsIdx
  rw [dif_neg (show ¬(0 : Fin S1024x288.rank) ∈ dot_S1024x288_S288x256_S1024x256_1_0_0_1_n_n.lhsBatch by decide), dif_pos (show (0 : Fin S1024x288.rank) ∈ dot_S1024x288_S288x256_S1024x256_1_0_0_1_n_n.lhsNonContracting by decide)]
  rfl
theorem lhs_first_1 (i : S1024x256.Idx) (q : dot_S1024x288_S288x256_S1024x256_1_0_0_1_n_n.contr.Idx) :
    (dot_S1024x288_S288x256_S1024x256_1_0_0_1_n_n.lhsIdx i q 1).val = (q ⟨0, by decide⟩).val :=
  dot_S1024x288_S288x256_S1024x256_1_0_0_1_n_n.lhsIdx_val_of_single rfl i q
theorem rhs_first_0 (i : S1024x256.Idx) (q : dot_S1024x288_S288x256_S1024x256_1_0_0_1_n_n.contr.Idx) :
    (dot_S1024x288_S288x256_S1024x256_1_0_0_1_n_n.rhsIdx i q 0).val = (q ⟨0, by decide⟩).val :=
  dot_S1024x288_S288x256_S1024x256_1_0_0_1_n_n.rhsIdx_val_of_single rfl i q
theorem rhs_first_1 (i : S1024x256.Idx) (q : dot_S1024x288_S288x256_S1024x256_1_0_0_1_n_n.contr.Idx) :
    (dot_S1024x288_S288x256_S1024x256_1_0_0_1_n_n.rhsIdx i q 1).val = (i 1).val := by
  unfold DotDims.rhsIdx
  rw [dif_neg (show ¬(1 : Fin S288x256.rank) ∈ dot_S1024x288_S288x256_S1024x256_1_0_0_1_n_n.rhsBatch by decide), dif_pos (show (1 : Fin S288x256.rank) ∈ dot_S1024x288_S288x256_S1024x256_1_0_0_1_n_n.rhsNonContracting by decide)]
  rfl

/-- The first layer's product, 288 features into 256 units. -/
theorem matmul_first_apply (x : FVec Ideal S1024x288 .bf16) (w : FVec Ideal S288x256 .bf16) (r : Fin 1024) (h : Fin 256) :
    matmul (F := Ideal) dot_S1024x288_S288x256_S1024x256_1_0_0_1_n_n none x w (constant (F := Ideal) S1024x256 .f32 0x00000000#32) (ix2 r h)
      = ∑ k : Fin 288, x (ix2 r k) * w (ix2 k h) := by
  simp only [matmul]
  rw [Ideal.matmul_constant_zero_apply, ← Equiv.sum_comp (ValueIdx.contrEquiv1 dot_S1024x288_S288x256_S1024x256_1_0_0_1_n_n 288 rfl rfl).symm]
  refine Finset.sum_congr rfl fun k _ => ?_
  have hk := ValueIdx.contrEquiv1_symm_val dot_S1024x288_S288x256_S1024x256_1_0_0_1_n_n 288 rfl rfl k
  have el : dot_S1024x288_S288x256_S1024x256_1_0_0_1_n_n.lhsIdx (ix2 r h) ((ValueIdx.contrEquiv1 dot_S1024x288_S288x256_S1024x256_1_0_0_1_n_n 288 rfl rfl).symm k) = ix2 r k := funext fun a => Fin.ext (by
    match a with
    | ⟨0, _⟩ => exact lhs_first_0 _ _
    | ⟨1, _⟩ => exact (lhs_first_1 _ _).trans hk)
  have er : dot_S1024x288_S288x256_S1024x256_1_0_0_1_n_n.rhsIdx (ix2 r h) ((ValueIdx.contrEquiv1 dot_S1024x288_S288x256_S1024x256_1_0_0_1_n_n 288 rfl rfl).symm k) = ix2 k h := funext fun a => Fin.ext (by
    match a with
    | ⟨0, _⟩ => exact (rhs_first_0 _ _).trans hk
    | ⟨1, _⟩ => exact rhs_first_1 _ _)
  rw [el, er]

theorem lhs_second_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_second_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhs_second_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhs_second_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The second layer's product, 256 units into 256 units. -/
theorem matmul_second_apply (x : FVec Ideal S1024x256 .bf16) (w : FVec Ideal S256x256 .bf16) (r : Fin 1024) (h : Fin 256) :
    matmul (F := Ideal) dot_S1024x256_S256x256_S1024x256_1_0_0_1_n_n none x w (constant (F := Ideal) S1024x256 .f32 0x00000000#32) (ix2 r h)
      = ∑ k : Fin 256, x (ix2 r k) * w (ix2 k h) := by
  simp only [matmul]
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 r h) ((ValueIdx.contrEquiv1 dot_S1024x256_S256x256_S1024x256_1_0_0_1_n_n 256 rfl rfl).symm k) = ix2 r k := funext fun a => Fin.ext (by
    match a with
    | ⟨0, _⟩ => exact lhs_second_0 _ _
    | ⟨1, _⟩ => exact (lhs_second_1 _ _).trans hk)
  have er : dot_S1024x256_S256x256_S1024x256_1_0_0_1_n_n.rhsIdx (ix2 r h) ((ValueIdx.contrEquiv1 dot_S1024x256_S256x256_S1024x256_1_0_0_1_n_n 256 rfl rfl).symm k) = ix2 k h := funext fun a => Fin.ext (by
    match a with
    | ⟨0, _⟩ => exact (rhs_second_0 _ _).trans hk
    | ⟨1, _⟩ => exact rhs_second_1 _ _)
  rw [el, er]

theorem lhs_third_0 (i : S1024x1.Idx) (q : dot_S1024x256_S256x1_S1024x1_1_0_0_1_n_n.contr.Idx) :
    (dot_S1024x256_S256x1_S1024x1_1_0_0_1_n_n.lhsIdx i q 0).val = (i 0).val := by
  unfold DotDims.lhsIdx
  rw [dif_neg (show ¬(0 : Fin S1024x256.rank) ∈ dot_S1024x256_S256x1_S1024x1_1_0_0_1_n_n.lhsBatch by decide), dif_pos (show (0 : Fin S1024x256.rank) ∈ dot_S1024x256_S256x1_S1024x1_1_0_0_1_n_n.lhsNonContracting by decide)]
  rfl
theorem lhs_third_1 (i : S1024x1.Idx) (q : dot_S1024x256_S256x1_S1024x1_1_0_0_1_n_n.contr.Idx) :
    (dot_S1024x256_S256x1_S1024x1_1_0_0_1_n_n.lhsIdx i q 1).val = (q ⟨0, by decide⟩).val :=
  dot_S1024x256_S256x1_S1024x1_1_0_0_1_n_n.lhsIdx_val_of_single rfl i q
theorem rhs_third_0 (i : S1024x1.Idx) (q : dot_S1024x256_S256x1_S1024x1_1_0_0_1_n_n.contr.Idx) :
    (dot_S1024x256_S256x1_S1024x1_1_0_0_1_n_n.rhsIdx i q 0).val = (q ⟨0, by decide⟩).val :=
  dot_S1024x256_S256x1_S1024x1_1_0_0_1_n_n.rhsIdx_val_of_single rfl i q
theorem rhs_third_1 (i : S1024x1.Idx) (q : dot_S1024x256_S256x1_S1024x1_1_0_0_1_n_n.contr.Idx) :
    (dot_S1024x256_S256x1_S1024x1_1_0_0_1_n_n.rhsIdx i q 1).val = (i 1).val := by
  unfold DotDims.rhsIdx
  rw [dif_neg (show ¬(1 : Fin S256x1.rank) ∈ dot_S1024x256_S256x1_S1024x1_1_0_0_1_n_n.rhsBatch by decide), dif_pos (show (1 : Fin S256x1.rank) ∈ dot_S1024x256_S256x1_S1024x1_1_0_0_1_n_n.rhsNonContracting by decide)]
  rfl

/-- The third layer's product, 256 units into the one result. -/
theorem matmul_third_apply (x : FVec Ideal S1024x256 .bf16) (w : FVec Ideal S256x1 .bf16) (r : Fin 1024) (c : Fin 1) :
    matmul (F := Ideal) dot_S1024x256_S256x1_S1024x1_1_0_0_1_n_n none x w (constant (F := Ideal) S1024x1 .f32 0x00000000#32) (ix2 r c)
      = ∑ k : Fin 256, x (ix2 r k) * w (ix2 k c) := by
  simp only [matmul]
  rw [Ideal.matmul_constant_zero_apply, ← Equiv.sum_comp (ValueIdx.contrEquiv1 dot_S1024x256_S256x1_S1024x1_1_0_0_1_n_n 256 rfl rfl).symm]
  refine Finset.sum_congr rfl fun k _ => ?_
  have hk := ValueIdx.contrEquiv1_symm_val dot_S1024x256_S256x1_S1024x1_1_0_0_1_n_n 256 rfl rfl k
  have el : dot_S1024x256_S256x1_S1024x1_1_0_0_1_n_n.lhsIdx (ix2 r c) ((ValueIdx.contrEquiv1 dot_S1024x256_S256x1_S1024x1_1_0_0_1_n_n 256 rfl rfl).symm k) = ix2 r k := funext fun a => Fin.ext (by
    match a with
    | ⟨0, _⟩ => exact lhs_third_0 _ _
    | ⟨1, _⟩ => exact (lhs_third_1 _ _).trans hk)
  have er : dot_S1024x256_S256x1_S1024x1_1_0_0_1_n_n.rhsIdx (ix2 r c) ((ValueIdx.contrEquiv1 dot_S1024x256_S256x1_S1024x1_1_0_0_1_n_n 256 rfl rfl).symm k) = ix2 k c := funext fun a => Fin.ext (by
    match a with
    | ⟨0, _⟩ => exact (rhs_third_0 _ _).trans hk
    | ⟨1, _⟩ => exact rhs_third_1 _ _)
  rw [el, er]

/-! ## The layers

A dense layer at `(r, h)`: the product's sum over the row's features, the bias of unit `h` added; the first two keep the
larger of that and the float zero word, and the narrowing to the next product's operand format changes no value. -/

/-- A bias row laid under every one of the 1024 rows reads, at `(r, g)`, the bias of unit `g`. -/
theorem bias_apply {α : Type} {b : ℕ} (v : (⟨1, ![b]⟩ : Shape).Idx → α) (h1 : (⟨1, ![b]⟩ : Shape).ShapeCasts ⟨2, ![1, b]⟩)
    (h2 : (⟨2, ![1, b]⟩ : Shape).Broadcasts ⟨2, ![1024, b]⟩) (r : Fin 1024) (g : Fin b) :
    broadcastTo ⟨2, ![1024, b]⟩ (shapeCast ⟨2, ![1, b]⟩ v h1) h2 (ix2 r g) = v (ix1 g) :=
  (broadcastTo_1b_ab_apply _ h2 r g).trans (shapeCast_a_1a_apply v h1 0 g)

/-- The first layer on the rows `x`, at `(r, g)`. -/
theorem layer_first_apply (x : FVec Ideal S1024x288 .bf16) (w : FVec Ideal S288x256 .bf16) (b : FVec Ideal S256 .f32)
    (hw : S288x256.ShapeCasts S288x256) (h1 : S256.ShapeCasts S1x256) (h2 : S1x256.Broadcasts S1024x256)
    (hlt : FTy.bits .bf16 < FTy.bits .f32) (r : Fin 1024) (g : Fin 256) :
    truncf (F := Ideal) .bf16 (maximumf (F := Ideal) (addf (F := Ideal)
        (matmul (F := Ideal) dot_S1024x288_S288x256_S1024x256_1_0_0_1_n_n none x (shapeCast S288x256 w hw)
          (constant (F := Ideal) S1024x256 .f32 0x00000000#32))
        (broadcastTo S1024x256 (shapeCast S1x256 b h1) h2))
        (broadcast S1024x256 (Scalar.ofBits (F := Ideal) .f32 0x00000000#32))) hlt (ix2 r g)
      = Cert.Mlp.relu (Cert.Mlp.unit (fun k : Fin 288 => x (ix2 r k)) w (b (ix1 g)) g) := by
  rw [truncf_apply, maximumf_apply, addf_apply, broadcast_apply, matmul_first_apply, bias_apply, shapeCast_self]
  rfl

/-- The second layer on the first layer's units `x`, at `(r, h)`. -/
theorem layer_second_apply (x : FVec Ideal S1024x256 .bf16) (w : FVec Ideal S256x256 .bf16) (b : FVec Ideal S256 .f32)
    (hw : S256x256.ShapeCasts S256x256) (h1 : S256.ShapeCasts S1x256) (h2 : S1x256.Broadcasts S1024x256)
    (hlt : FTy.bits .bf16 < FTy.bits .f32) (r : Fin 1024) (h : Fin 256) :
    truncf (F := Ideal) .bf16 (maximumf (F := Ideal) (addf (F := Ideal)
        (matmul (F := Ideal) dot_S1024x256_S256x256_S1024x256_1_0_0_1_n_n none x (shapeCast S256x256 w hw)
          (constant (F := Ideal) S1024x256 .f32 0x00000000#32))
        (broadcastTo S1024x256 (shapeCast S1x256 b h1) h2))
        (broadcast S1024x256 (Scalar.ofBits (F := Ideal) .f32 0x00000000#32))) hlt (ix2 r h)
      = Cert.Mlp.relu (Cert.Mlp.unit (fun k : Fin 256 => x (ix2 r k)) w (b (ix1 h)) h) := by
  rw [truncf_apply, maximumf_apply, addf_apply, broadcast_apply, matmul_second_apply, bias_apply, shapeCast_self]
  rfl

/-- The third layer on the second layer's units `x`, stored with a leading unit axis, at `(u, r, c)`. -/
theorem layer_third_apply (x : FVec Ideal S1024x256 .bf16) (w : FVec Ideal S256x1 .bf16) (b : FVec Ideal S1 .f32)
    (hw : S256x1.ShapeCasts S256x1) (h1 : S1.ShapeCasts S1x1) (h2 : S1x1.Broadcasts S1024x1)
    (h3 : S1024x1.ShapeCasts S1x1024x1) (u : Fin 1) (r : Fin 1024) (c : Fin 1) :
    shapeCast S1x1024x1 (addf (F := Ideal)
        (matmul (F := Ideal) dot_S1024x256_S256x1_S1024x1_1_0_0_1_n_n none x (shapeCast S256x1 w hw)
          (constant (F := Ideal) S1024x1 .f32 0x00000000#32))
        (broadcastTo S1024x1 (shapeCast S1x1 b h1) h2)) h3 (ix3 u r c)
      = Cert.Mlp.unit (fun k : Fin 256 => x (ix2 r k)) w (b (ix1 c)) c := by
  rw [shapeCast_ab_1ab_apply, addf_apply, matmul_third_apply, bias_apply, shapeCast_self]
  rfl

/-! ## The body -/

/-- The joined rows at `(r, f)`: the row the point lays out for its result `r`. -/
theorem rows_apply (v2 : FVec Ideal S1x64x128 .bf16) (v5 : FVec Ideal S1x16x128 .bf16) (v15 : FVec Ideal S1x1024x32 .bf16)
    (a1 : S1x16x128.ShapeCasts S16x128) (a2 : S16x128.ShapeCasts S16x1x128) (a3 : S16x1x128.ShapeCasts S16x1x128)
    (ab : S16x1x128.Broadcasts S16x64x128) (a4 : S16x64x128.ShapeCasts S1024x128) (e1 : S1x1024x32.ShapeCasts S1024x32)
    (f1 : S1x64x128.ShapeCasts S64x128) (f2 : S64x128.ShapeCasts S1x64x128) (f3 : S1x64x128.ShapeCasts S1x64x128)
    (fb : S1x64x128.Broadcasts S16x64x128) (f4 : S16x64x128.ShapeCasts S1024x128)
    (hc : Shape.Concatenates [S1024x128, S1024x32, S1024x128] S1024x288 1) (r : Fin 1024) (f : Fin 288) :
    concatenate S1024x288 1
        [⟨S1024x128, shapeCast S1024x128 (broadcastTo S16x64x128 (shapeCast S16x1x128 (shapeCast S16x1x128 (shapeCast S16x128 v5 a1) a2) a3) ab) a4⟩,
         ⟨S1024x32, shapeCast S1024x32 v15 e1⟩,
         ⟨S1024x128, shapeCast S1024x128 (broadcastTo S16x64x128 (shapeCast S1x64x128 (shapeCast S1x64x128 (shapeCast S64x128 v2 f1) f2) f3) fb) f4⟩]
        hc (ix2 r f)
      = Cert.Mlp.blockRow v2 v5 v15 r f := by
  refine (concat_apply _ _ _ hc r f).trans ?_
  unfold Cert.Mlp.blockRow
  by_cases h1 : f.val < 128
  · rw [dif_pos h1, dif_pos h1]
    exact own_apply v5 a1 a2 a3 ab a4 r _
  · rw [dif_neg h1, dif_neg h1]
    by_cases h2 : f.val < 160
    · rw [dif_pos h2, dif_pos h2]
      exact shapeCast_1ab_ab_apply v15 e1 r _
    · rw [dif_neg h2, dif_neg h2]
      exact full_apply v2 f1 f2 f3 fb f4 r _

/-- The value the body's first part hands to its second, at `(r, h)`: the first two layers on row `r`. -/
theorem hidden_apply (v2 : Vec Ideal S1x64x128 .bf16) (v5 : Vec Ideal S1x16x128 .bf16) (v15 : Vec Ideal S1x1024x32 .bf16)
    (v18 : Vec Ideal S288x256 .bf16) (v21 : Vec Ideal S256 .f32) (v28 : Vec Ideal S256x256 .bf16) (v31 : Vec Ideal S256 .f32)
    (r : Fin 1024) (h : Fin 256) :
    k0_pay2 (F := Ideal) v2 v5 v15 v18 v21 v28 v31 (ix2 r h)
      = Cert.Mlp.relu (Cert.Mlp.unit (fun g : Fin 256 => Cert.Mlp.relu (Cert.Mlp.unit (Cert.Mlp.blockRow v2 v5 v15 r) v18 (v21 (ix1 g)) g))
          v28 (v31 (ix1 h)) h) := by
  unfold k0_pay2
  refine (layer_second_apply _ v28 v31 _ _ _ _ r h).trans ?_
  refine congrArg (fun x => Cert.Mlp.relu (Cert.Mlp.unit x v28 (v31 (ix1 h)) h)) (funext fun g => ?_)
  refine (layer_first_apply _ v18 v21 _ _ _ _ r g).trans ?_
  refine congrArg (fun x => Cert.Mlp.relu (Cert.Mlp.unit x v18 (v21 (ix1 g)) g)) (funext fun f => ?_)
  exact rows_apply v2 v5 v15 _ _ _ _ _ _ _ _ _ _ _ _ r f

/-- The stored value at `(u, r, c)`, over the body's nine loads: the batch's node list `v2`, the point's sixteen nodes `v5`,
    the rows' edge features `v15`, and the six weight and bias blocks. -/
theorem body_apply (v2 : Vec Ideal S1x64x128 .bf16) (v5 : Vec Ideal S1x16x128 .bf16) (v15 : Vec Ideal S1x1024x32 .bf16)
    (v18 : Vec Ideal S288x256 .bf16) (v21 : Vec Ideal S256 .f32) (v28 : Vec Ideal S256x256 .bf16) (v31 : Vec Ideal S256 .f32)
    (v38 : Vec Ideal S256x1 .bf16) (v41 : Vec Ideal S1 .f32) (u : Fin 1) (r : Fin 1024) (c : Fin 1) :
    k0_pay1 (F := Ideal) (k0_pay2 (F := Ideal) v2 v5 v15 v18 v21 v28 v31) v38 v41 (ix3 u r c)
      = Cert.Mlp.mlpRow (Cert.Mlp.blockRow v2 v5 v15 r) v18 v21 v28 v31 v38 v41 c := by
  unfold k0_pay1
  refine (layer_third_apply _ v38 v41 _ _ _ _ u r c).trans ?_
  unfold Cert.Mlp.mlpRow
  refine congrArg (fun x => Cert.Mlp.unit x v38 (v41 (ix1 c)) c) (funext fun h => ?_)
  exact hidden_apply v2 v5 v15 v18 v21 v28 v31 r h

end Cert.BodyValue

end
-- ==== Proof.KernelValue.lean ====
/-
  The kernel's result array. Each of the 512 grid points writes back one block of 1024 results; entry `r` of point
  `t`'s block is the three layers on the row the point lays out for `r`, which is the row of pair `1024·(t % 4) + r` of
  batch `t / 4`; the blocks tile the array (pair `p` of batch `b` lies in the block of point `4·b + p / 1024`). So the
  array ends holding `Mlp.out` of the argument arrays.
-/
import proofs.«116079_j40922448396322_1_alg».proof.Proof.Gen.KernelIdeal.Value
import proofs.«116079_j40922448396322_1_alg».proof.Proof.Pieces
import proofs.«116079_j40922448396322_1_alg».proof.Proof.Blocks
import proofs.«116079_j40922448396322_1_alg».proof.Proof.Mlp
import proofs.«116079_j40922448396322_1_alg».proof.Proof.BodyValue
import Idealize.ShloMosaic.Lib.Pipeline.Value
import Idealize.ShloMosaic.Lib.ValueIdx
import Idealize.ShloMosaic.Lib.Tactic

set_option maxRecDepth 16384

noncomputable section

namespace Cert.KernelValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array both programs are to end with, of core `c`'s argument arrays. -/
abbrev result (c : Dev nD) : S128x4096x1.Idx → EReal :=
  Cert.Mlp.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-! ## The row a point lays out is the pair's row -/

/-- Row `r` of point `t`: the point's own node `r / 64` is node `(1024·(t % 4) + r) / 64` of the batch, its edge
    features are the pair's, and node `r % 64` of the batch is node `(1024·(t % 4) + r) % 64`. -/
theorem row_eq (c : Dev nD) (t : Fin cfg0.N) (r : Fin 1024) :
    Cert.Mlp.blockRow (nodesBlk m c t) (ownNodes (grid0.coords t) (nodesBlk m c t)) (edgesBlk m c t) r
      = Cert.Mlp.pairRow (m ((c : Thread nD τ).loc main_arg0)) (m ((c : Thread nD τ).loc main_arg1)) (batchOf t) (pairOf t r) := by
  funext f
  have hr := r.isLt
  have hf := f.isLt
  unfold Cert.Mlp.blockRow Cert.Mlp.pairRow
  by_cases h1 : f.val < 128
  · rw [dif_pos h1, dif_pos h1, ownNodes_apply, nodesBlk_apply, V_nodes]
    show m ((c : Thread nD τ).loc main_arg0) _ = m ((c : Thread nD τ).loc main_arg0) _
    congr 1
    funext a
    apply Fin.ext
    match a with
    | ⟨0, _⟩ => rfl
    | ⟨1, _⟩ => show 16 * (t.val % 4) + r.val / 64 = (1024 * (t.val % 4) + r.val) / 64; omega
    | ⟨2, _⟩ => rfl
  · rw [dif_neg h1, dif_neg h1]
    by_cases h2 : f.val < 160
    · rw [dif_pos h2, dif_pos h2, edgesBlk_apply, V_edges]
      rfl
    · rw [dif_neg h2, dif_neg h2, nodesBlk_apply, V_nodes]
      show m ((c : Thread nD τ).loc main_arg0) _ = m ((c : Thread nD τ).loc main_arg0) _
      congr 1
      funext a
      apply Fin.ext
      match a with
      | ⟨0, _⟩ => rfl
      | ⟨1, _⟩ => show r.val % 64 = (1024 * (t.val % 4) + r.val) % 64; omega
      | ⟨2, _⟩ => rfl

/-! ## What a point leaves in its output block -/

/-- After the body at point `t`, entry `(u, r, k)` of the output block is the result at batch `t / 4`, pair
    `1024·(t % 4) + r`: the body's term of the blocks, the blocks read as rows of the arguments. -/
theorem stored_at (c : Dev nD) (t : Fin cfg0.N) (u : Fin 1) (r : Fin 1024) (k : Fin 1) :
    outsAt0 m c t (ix3 u r k) = result m c (ix3 (batchOf t) (pairOf t r) k) := by
  have h : outsAt0 m c t = k0_pay1 (F := Ideal) (k0_pay2 (F := Ideal) (nodesBlk m c t) (ownNodes (grid0.coords t) (nodesBlk m c t)) (edgesBlk m c t)
      (w1Blk m c t) (b1Blk m c t) (w2Blk m c t) (b2Blk m c t)) (w3Blk m c t) (b3Blk m c t) := by
    unfold outsAt0
    exact stored_eq c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) (ms0_8 t) (hs0_8 t)
      (iblk m c 0 t) (iblk m c 1 t) (iblk m c 2 t) (iblk m c 3 t) (iblk m c 4 t) (iblk m c 5 t) (iblk m c 6 t) (iblk m c 7 t)
  rw [h, Cert.BodyValue.body_apply, row_eq, w1Blk_eq, b1Blk_eq, w2Blk_eq, b2Blk_eq, w3Blk_eq, b3Blk_eq, V_w1, V_w2, V_w3,
    V_main_arg3, V_main_arg5, V_main_arg7]
  rfl

/-- WHAT POINT `t` WRITES BACK is block `t` of the result array. -/
theorem flushed_eq (c : Dev nD) (t : Fin cfg0.N) :
    (dats m 0 c).flushed 8 t = ((cfg0.win 8).blk t).view.read (Elt Ideal) (result m c) := by
  obtain ⟨-, -, -, -, -, -, e0, e1, e2, -⟩ := idx_facts t
  rw [Cert.KernelIdeal.Value.flushed8]
  funext j
  show outsAt0 m c t j = result m c (((cfg0.win 8).blk t).view.emb j)
  obtain ⟨u, r, k, rfl⟩ : ∃ (u : Fin 1) (r : Fin 1024) (k : Fin 1), j = ix3 u r k := ⟨j 0, j 1, j 2, eq_ix3 j⟩
  rw [stored_at]
  congr 1
  funext a
  apply Fin.ext
  match a with
  | ⟨0, _⟩ => show t.val / 4 = win0_8.index t (0 : Fin 3) * 1 + 1 * u.val; rw [e0]; omega
  | ⟨1, _⟩ => show 1024 * (t.val % 4) + r.val = win0_8.index t (1 : Fin 3) * 1024 + 1 * r.val; rw [e1]; omega
  | ⟨2, _⟩ => show k.val = win0_8.index t (2 : Fin 3) * 1 + 1 * k.val; rw [e2]; omega

/-! ## The 512 blocks tile the result array -/

/-- An index of the array is in point `t`'s block iff each coordinate is in the block's range on its axis. -/
theorem mem_blk (t : Fin cfg0.N) (i : S128x4096x1.Idx) :
    i ∈ ((cfg0.win 8).blk t).view.set ↔ ∀ a : Fin 3, win0_8.index t a * S1x1024x1.size a ≤ (i a).val ∧ (i a).val < win0_8.index t a * S1x1024x1.size a + S1x1024x1.size a := by
  show i ∈ ((View.whole main_v5).slice (win0_8.rect t)).set ↔ _
  rw [View.set_slice_whole, Rect.mem_set_unit]
  exact Iff.rfl

/-- Pair `p` of batch `b` lies in the block of point `4·b + p / 1024`. -/
theorem cover (i : S128x4096x1.Idx) : ∃ t : Fin cfg0.N, (cfg0.win 8).flush t = true ∧ i ∈ ((cfg0.win 8).blk t).view.set := by
  have h0 : (i 0).val < 128 := (i 0).isLt
  have h1 : (i 1).val < 4096 := (i 1).isLt
  have h2 : (i 2).val < 1 := (i 2).isLt
  have hN : cfg0.N = 512 := N_0
  refine ⟨⟨4 * (i 0).val + (i 1).val / 1024, by omega⟩, flush0_8 _, ?_⟩
  obtain ⟨-, -, -, -, -, -, e0, e1, e2, -⟩ := idx_facts ⟨4 * (i 0).val + (i 1).val / 1024, by omega⟩
  rw [mem_blk]
  intro a
  match a with
  | ⟨0, _⟩ => show win0_8.index _ (0 : Fin 3) * 1 ≤ (i 0).val ∧ (i 0).val < win0_8.index _ (0 : Fin 3) * 1 + 1; rw [e0]; dsimp only; omega
  | ⟨1, _⟩ => show win0_8.index _ (1 : Fin 3) * 1024 ≤ (i 1).val ∧ (i 1).val < win0_8.index _ (1 : Fin 3) * 1024 + 1024; rw [e1]; dsimp only; omega
  | ⟨2, _⟩ => show win0_8.index _ (2 : Fin 3) * 1 ≤ (i 2).val ∧ (i 2).val < win0_8.index _ (2 : Fin 3) * 1 + 1; rw [e2]; omega

/-- So the result array ends holding `result`. -/
theorem final (c : Dev nD) : (dats m 0 c).arrAt 8 cfg0.N = result m c :=
  (dats m 0 c).arrAt_eq_of_cover 8 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelValue

end
-- ==== Proof.lean ====
/-
  Equivalence, over the extended reals, of a fused pairwise three-layer perceptron kernel and its jnp reference.

  For each of 128 batches of 64 nodes (128 features each) and each ordered pair `p = 64·i + j` of nodes, with 32 edge
  features of its own, both programs form the row `[node i, edge p, node j]` of 288 features and apply
  `W3ᵀ · relu (W2ᵀ · relu (W1ᵀ · row + b1) + b2) + b3`. The reference builds all rows at once; the kernel walks a 128 × 4
  grid, one batch and sixteen nodes `i` (1024 pairs) per point, after narrowing the nodes, the edge features and the
  weight matrices to a shorter float format, which on the extended reals changes nothing. Both results are the one
  function `Mlp.out` of the eight arguments (Proof/Mlp.lean), index by index: no law of arithmetic is used beyond
  reading each product as its sum, so the precondition is never opened.

    Proof/Mlp.lean          the function, and the two layouts of a row
    Proof/RefValue.lean     the reference's last stage is `Mlp.out`
    Proof/BodyValue.lean    the kernel body's stored value at an index is the three layers on the row it lays out
    Proof/Pieces.lean       what the body leaves in its output block, as that value of the loaded blocks
    Proof/Blocks.lean       the blocks a grid point is handed, as rows of the arrays
    Proof/KernelValue.lean  the kernel's result array is `Mlp.out`: each point's block, and the blocks tile the array

  The frames of the two kernel programs are the generated frame certificates; the reference's is its generated run with the
  result dropped; the idealization rewrote nothing, so `preserves` is `True`.
-/
import proofs.«116079_j40922448396322_1_alg».proof.Defs
import proofs.«116079_j40922448396322_1_alg».proof.Proof.Gen.Kernel
import proofs.«116079_j40922448396322_1_alg».proof.Proof.Gen.Kernel.Frame
import proofs.«116079_j40922448396322_1_alg».proof.Proof.Gen.KernelIdeal
import proofs.«116079_j40922448396322_1_alg».proof.Proof.Gen.KernelIdeal.Frame
import proofs.«116079_j40922448396322_1_alg».proof.Proof.Gen.KernelIdeal.Value
import proofs.«116079_j40922448396322_1_alg».proof.Proof.Gen.ReferenceIdeal
import proofs.«116079_j40922448396322_1_alg».proof.Proof.Gen.ReferenceIdeal.Run
import proofs.«116079_j40922448396322_1_alg».proof.Proof.Gen.ReferenceIdeal.Read
import proofs.«116079_j40922448396322_1_alg».proof.Proof.Gen.Pre_finite_inputs
import proofs.«116079_j40922448396322_1_alg».proof.Proof.RefValue
import proofs.«116079_j40922448396322_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the eight arguments, the kernel's result array ends at `Mlp.out` of its arguments
    (Proof/KernelValue.lean) and the reference's at its last stage of its own, which is `Mlp.out` of them
    (Proof/RefValue.lean): the same array. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [a0, a1, a2, a3, a4, a5, a6, a7]
  exact (Cert.ReferenceIdeal.Read.val_main_v20_eq _ _ _ _ _ _ _ _).trans (Cert.RefValue.ref_is_out _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
